-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S64x16 .f32) (main_arg9 : FVec F S16 .f32) (main_v33 : IVec S_ 1) : IVec S_ 1 :=
  let main_v34 : FVec F S64x16 .f32 := Host.absf main_arg8
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x16 .f32) (main_arg9 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x16 .f32) (main_arg9 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S1x16 : Shape := ⟨2, ![1, 16]⟩
abbrev S100000x16 : Shape := ⟨2, ![100000, 16]⟩
abbrev S10000x16 : Shape := ⟨2, ![10000, 16]⟩

abbrev nBuf : Space → Nat
  | .hbm => 118
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x16, .f32⟩
  | .hbm, ⟨9, _⟩ => ⟨S16, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x1, .f32⟩
  | .hbm, ⟨84, _⟩ => ⟨S1700000x64, .f32⟩
  | .hbm, ⟨85, _⟩ => ⟨S1700000x64, .f32⟩
  | .hbm, ⟨86, _⟩ => ⟨S_, .f32⟩
  | .hbm, ⟨87, _⟩ => ⟨S100000x64, .f32⟩
  | .hbm, ⟨88, _⟩ => ⟨S1700000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000x64, .f32⟩
  | .hbm, ⟨106, _⟩ => ⟨S1700000x1, .f32⟩
  | .hbm, ⟨107, _⟩ => ⟨S1700000x64, .f32⟩
  | .hbm, ⟨108, _⟩ => ⟨S1700000x64, .f32⟩
  | .hbm, ⟨109, _⟩ => ⟨S_, .f32⟩
  | .hbm, ⟨110, _⟩ => ⟨S100000x64, .f32⟩
  | .hbm, ⟨111, _⟩ => ⟨S1700000x1, .i32⟩
  | .hbm, ⟨112, _⟩ => ⟨S100000x64, .f32⟩
  | .hbm, ⟨113, _⟩ => ⟨S1x64, .f32⟩
  | .hbm, ⟨114, _⟩ => ⟨S100000x64, .f32⟩
  | .hbm, ⟨115, _⟩ => ⟨S100000x64, .f32⟩
  | .hbm, ⟨116, _⟩ => ⟨S1x16, .f32⟩
  | .hbm, ⟨117, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64x16, .f32⟩
  | .local _ .vmem, ⟨18, _⟩ => ⟨S1x16, .f32⟩
  | .local _ .vmem, ⟨19, _⟩ => ⟨S10000x16, .f32⟩
  | .local _ .vmem, ⟨20, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x16.size a ≤ S64x16.size a
  hwx3_1 : ∀ i : grid3.Coords, EltTy.bits .f32 = 32 ∨ (Rect.block (s := S64x16) S64x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x16.size a ≤ S100000x16.size a
  hwx3_3 : ∀ i : grid3.Coords, EltTy.bits .f32 = 32 ∨ (Rect.block (s := S100000x16) S10000x16.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v82) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v83) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v84) S10000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x16 : Shape := ⟨2, ![100000, 16]⟩
abbrev S1x16 : Shape := ⟨2, ![1, 16]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x16, .f32⟩
  | .hbm, ⟨9, _⟩ => ⟨S16, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x1, .f32⟩
  | .hbm, ⟨84, _⟩ => ⟨S1700000x64, .f32⟩
  | .hbm, ⟨85, _⟩ => ⟨S1700000x64, .f32⟩
  | .hbm, ⟨86, _⟩ => ⟨S_, .f32⟩
  | .hbm, ⟨87, _⟩ => ⟨S100000x64, .f32⟩
  | .hbm, ⟨88, _⟩ => ⟨S1700000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000x64, .f32⟩
  | .hbm, ⟨106, _⟩ => ⟨S1700000x1, .f32⟩
  | .hbm, ⟨107, _⟩ => ⟨S1700000x64, .f32⟩
  | .hbm, ⟨108, _⟩ => ⟨S1700000x64, .f32⟩
  | .hbm, ⟨109, _⟩ => ⟨S_, .f32⟩
  | .hbm, ⟨110, _⟩ => ⟨S100000x64, .f32⟩
  | .hbm, ⟨111, _⟩ => ⟨S1700000x1, .i32⟩
  | .hbm, ⟨112, _⟩ => ⟨S100000x64, .f32⟩
  | .hbm, ⟨113, _⟩ => ⟨S1x64, .f32⟩
  | .hbm, ⟨114, _⟩ => ⟨S100000x64, .f32⟩
  | .hbm, ⟨115, _⟩ => ⟨S100000x64, .f32⟩
  | .hbm, ⟨116, _⟩ => ⟨S100000x16, .f32⟩
  | .hbm, ⟨117, _⟩ => ⟨S1x16, .f32⟩
  | .hbm, ⟨118, _⟩ => ⟨S100000x16, .f32⟩
  | .hbm, ⟨119, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.Carry.lean ====
/-
  What the kernel program's buffers hold at each boundary between its host stretches and its calls, for the buffers
  that cross several of them.

  The first stretch computes, from the edge list alone, the source and destination endpoints with the self loops
  appended and the symmetric normalisation weight of every edge; these are the reference's stages of the same
  operations. No later host operation and no call writes them, nor any argument array, so at every later boundary they
  still hold those values: a stretch leaves a buffer it does not write as it was, and a call changes only its own arrays.
-/
import proofs.«419398_j24824910970942_3_alg».proof.Proof.Gen.KernelIdeal.Frame
import proofs.«419398_j24824910970942_3_alg».proof.Proof.RefRead
import Idealize.ShloMosaic.Lib.StableHlo.Run

set_option maxRecDepth 16384
set_option maxHeartbeats 4000000

noncomputable section

namespace Cert.Bridge.Carry

open Idealize.ShloMosaic Idealize.ShloMosaic.StableHlo Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-! ## At the first call's entry: what the first stretch computed, and the arguments as launched -/

/-- The source endpoints, self loops appended. -/
theorem W3_v3 : W3 m ρ c (Proc.devRef .tc main_v3) = Cert.ReferenceIdeal.ReadP.val_main_v3 (F := F) (m ((c : Thread nD τ).loc main_arg1)) := by
  dsimp only [W3, W2, W1, W0, hostOps0, hostOps0_1, hostOps0_2]
  after_results
  rfl

/-- The destination endpoints, self loops appended. -/
theorem W3_v6 : W3 m ρ c (Proc.devRef .tc main_v6) = Cert.ReferenceIdeal.ReadP.val_main_v6 (F := F) (m ((c : Thread nD τ).loc main_arg1)) := by
  dsimp only [W3, W2, W1, W0, hostOps0, hostOps0_1, hostOps0_2]
  after_results
  rfl

/-- The edge weights: the product of the two endpoints' inverse square-root degrees (zero where the degree is not positive). -/
theorem W3_v29 : W3 m ρ c (Proc.devRef .tc main_v29) = Cert.ReferenceIdeal.ReadP.val_main_v29 (F := F) (m ((c : Thread nD τ).loc main_arg1)) := by
  dsimp only [W3, W2, W1, W0, hostOps0, hostOps0_1, hostOps0_2]
  after_results
  rfl

theorem W3_arg0 : W3 m ρ c (Proc.devRef .tc main_arg0) = (m ((c : Thread nD τ).loc main_arg0)) := by
  dsimp only [W3, W2, W1, W0, hostOps0, hostOps0_1, hostOps0_2]
  after_results <;> rfl

theorem W3_arg2 : W3 m ρ c (Proc.devRef .tc main_arg2) = (m ((c : Thread nD τ).loc main_arg2)) := by
  dsimp only [W3, W2, W1, W0, hostOps0, hostOps0_1, hostOps0_2]
  after_results <;> rfl

theorem W3_arg3 : W3 m ρ c (Proc.devRef .tc main_arg3) = (m ((c : Thread nD τ).loc main_arg3)) := by
  dsimp only [W3, W2, W1, W0, hostOps0, hostOps0_1, hostOps0_2]
  after_results <;> rfl

theorem W3_arg4 : W3 m ρ c (Proc.devRef .tc main_arg4) = (m ((c : Thread nD τ).loc main_arg4)) := by
  dsimp only [W3, W2, W1, W0, hostOps0, hostOps0_1, hostOps0_2]
  after_results <;> rfl

theorem W3_arg5 : W3 m ρ c (Proc.devRef .tc main_arg5) = (m ((c : Thread nD τ).loc main_arg5)) := by
  dsimp only [W3, W2, W1, W0, hostOps0, hostOps0_1, hostOps0_2]
  after_results <;> rfl

theorem W3_arg6 : W3 m ρ c (Proc.devRef .tc main_arg6) = (m ((c : Thread nD τ).loc main_arg6)) := by
  dsimp only [W3, W2, W1, W0, hostOps0, hostOps0_1, hostOps0_2]
  after_results <;> rfl

theorem W3_arg7 : W3 m ρ c (Proc.devRef .tc main_arg7) = (m ((c : Thread nD τ).loc main_arg7)) := by
  dsimp only [W3, W2, W1, W0, hostOps0, hostOps0_1, hostOps0_2]
  after_results <;> rfl

theorem W3_arg8 : W3 m ρ c (Proc.devRef .tc main_arg8) = (m ((c : Thread nD τ).loc main_arg8)) := by
  dsimp only [W3, W2, W1, W0, hostOps0, hostOps0_1, hostOps0_2]
  after_results <;> rfl

theorem W3_arg9 : W3 m ρ c (Proc.devRef .tc main_arg9) = (m ((c : Thread nD τ).loc main_arg9)) := by
  dsimp only [W3, W2, W1, W0, hostOps0, hostOps0_1, hostOps0_2]
  after_results <;> rfl

/-! ## After the first call -/

theorem W4_v3 : W4 m ρ c (Proc.devRef .tc main_v3) = Cert.ReferenceIdeal.ReadP.val_main_v3 (F := F) (m ((c : Thread nD τ).loc main_arg1)) :=
  (W4_of_ne m ρ c main_v3 (by decide)).trans (W3_v3 m ρ c)

theorem W4_v6 : W4 m ρ c (Proc.devRef .tc main_v6) = Cert.ReferenceIdeal.ReadP.val_main_v6 (F := F) (m ((c : Thread nD τ).loc main_arg1)) :=
  (W4_of_ne m ρ c main_v6 (by decide)).trans (W3_v6 m ρ c)

theorem W4_v29 : W4 m ρ c (Proc.devRef .tc main_v29) = Cert.ReferenceIdeal.ReadP.val_main_v29 (F := F) (m ((c : Thread nD τ).loc main_arg1)) :=
  (W4_of_ne m ρ c main_v29 (by decide)).trans (W3_v29 m ρ c)

theorem W4_arg3 : W4 m ρ c (Proc.devRef .tc main_arg3) = (m ((c : Thread nD τ).loc main_arg3)) :=
  (W4_of_ne m ρ c main_arg3 (by decide)).trans (W3_arg3 m ρ c)

theorem W4_arg4 : W4 m ρ c (Proc.devRef .tc main_arg4) = (m ((c : Thread nD τ).loc main_arg4)) :=
  (W4_of_ne m ρ c main_arg4 (by decide)).trans (W3_arg4 m ρ c)

theorem W4_arg5 : W4 m ρ c (Proc.devRef .tc main_arg5) = (m ((c : Thread nD τ).loc main_arg5)) :=
  (W4_of_ne m ρ c main_arg5 (by decide)).trans (W3_arg5 m ρ c)

theorem W4_arg6 : W4 m ρ c (Proc.devRef .tc main_arg6) = (m ((c : Thread nD τ).loc main_arg6)) :=
  (W4_of_ne m ρ c main_arg6 (by decide)).trans (W3_arg6 m ρ c)

theorem W4_arg7 : W4 m ρ c (Proc.devRef .tc main_arg7) = (m ((c : Thread nD τ).loc main_arg7)) :=
  (W4_of_ne m ρ c main_arg7 (by decide)).trans (W3_arg7 m ρ c)

theorem W4_arg8 : W4 m ρ c (Proc.devRef .tc main_arg8) = (m ((c : Thread nD τ).loc main_arg8)) :=
  (W4_of_ne m ρ c main_arg8 (by decide)).trans (W3_arg8 m ρ c)

theorem W4_arg9 : W4 m ρ c (Proc.devRef .tc main_arg9) = (m ((c : Thread nD τ).loc main_arg9)) :=
  (W4_of_ne m ρ c main_arg9 (by decide)).trans (W3_arg9 m ρ c)

/-! ## Across the second stretch and the second call -/

theorem W6_v3 : W6 m ρ c (Proc.devRef .tc main_v3) = W4 m ρ c (Proc.devRef .tc main_v3) := by
  dsimp only [W6, W5, hostOps1, hostOps1_1]
  after_results <;> rfl

theorem W6_v6 : W6 m ρ c (Proc.devRef .tc main_v6) = W4 m ρ c (Proc.devRef .tc main_v6) := by
  dsimp only [W6, W5, hostOps1, hostOps1_1]
  after_results <;> rfl

theorem W6_v29 : W6 m ρ c (Proc.devRef .tc main_v29) = W4 m ρ c (Proc.devRef .tc main_v29) := by
  dsimp only [W6, W5, hostOps1, hostOps1_1]
  after_results <;> rfl

theorem W6_arg4 : W6 m ρ c (Proc.devRef .tc main_arg4) = (m ((c : Thread nD τ).loc main_arg4)) := by
  refine Eq.trans ?_ (W4_arg4 m ρ c)
  dsimp only [W6, W5, hostOps1, hostOps1_1]
  after_results <;> rfl

theorem W6_arg5 : W6 m ρ c (Proc.devRef .tc main_arg5) = (m ((c : Thread nD τ).loc main_arg5)) := by
  refine Eq.trans ?_ (W4_arg5 m ρ c)
  dsimp only [W6, W5, hostOps1, hostOps1_1]
  after_results <;> rfl

theorem W6_arg6 : W6 m ρ c (Proc.devRef .tc main_arg6) = (m ((c : Thread nD τ).loc main_arg6)) := by
  refine Eq.trans ?_ (W4_arg6 m ρ c)
  dsimp only [W6, W5, hostOps1, hostOps1_1]
  after_results <;> rfl

theorem W6_arg7 : W6 m ρ c (Proc.devRef .tc main_arg7) = (m ((c : Thread nD τ).loc main_arg7)) := by
  refine Eq.trans ?_ (W4_arg7 m ρ c)
  dsimp only [W6, W5, hostOps1, hostOps1_1]
  after_results <;> rfl

theorem W6_arg8 : W6 m ρ c (Proc.devRef .tc main_arg8) = (m ((c : Thread nD τ).loc main_arg8)) := by
  refine Eq.trans ?_ (W4_arg8 m ρ c)
  dsimp only [W6, W5, hostOps1, hostOps1_1]
  after_results <;> rfl

theorem W6_arg9 : W6 m ρ c (Proc.devRef .tc main_arg9) = (m ((c : Thread nD τ).loc main_arg9)) := by
  refine Eq.trans ?_ (W4_arg9 m ρ c)
  dsimp only [W6, W5, hostOps1, hostOps1_1]
  after_results <;> rfl

theorem W7_v3 : W7 m ρ c (Proc.devRef .tc main_v3) = Cert.ReferenceIdeal.ReadP.val_main_v3 (F := F) (m ((c : Thread nD τ).loc main_arg1)) :=
  (W7_of_ne m ρ c main_v3 (by decide)).trans ((W6_v3 m ρ c).trans (W4_v3 m ρ c))

theorem W7_v6 : W7 m ρ c (Proc.devRef .tc main_v6) = Cert.ReferenceIdeal.ReadP.val_main_v6 (F := F) (m ((c : Thread nD τ).loc main_arg1)) :=
  (W7_of_ne m ρ c main_v6 (by decide)).trans ((W6_v6 m ρ c).trans (W4_v6 m ρ c))

theorem W7_v29 : W7 m ρ c (Proc.devRef .tc main_v29) = Cert.ReferenceIdeal.ReadP.val_main_v29 (F := F) (m ((c : Thread nD τ).loc main_arg1)) :=
  (W7_of_ne m ρ c main_v29 (by decide)).trans ((W6_v29 m ρ c).trans (W4_v29 m ρ c))

theorem W7_arg5 : W7 m ρ c (Proc.devRef .tc main_arg5) = (m ((c : Thread nD τ).loc main_arg5)) :=
  (W7_of_ne m ρ c main_arg5 (by decide)).trans (W6_arg5 m ρ c)

theorem W7_arg6 : W7 m ρ c (Proc.devRef .tc main_arg6) = (m ((c : Thread nD τ).loc main_arg6)) :=
  (W7_of_ne m ρ c main_arg6 (by decide)).trans (W6_arg6 m ρ c)

theorem W7_arg7 : W7 m ρ c (Proc.devRef .tc main_arg7) = (m ((c : Thread nD τ).loc main_arg7)) :=
  (W7_of_ne m ρ c main_arg7 (by decide)).trans (W6_arg7 m ρ c)

theorem W7_arg8 : W7 m ρ c (Proc.devRef .tc main_arg8) = (m ((c : Thread nD τ).loc main_arg8)) :=
  (W7_of_ne m ρ c main_arg8 (by decide)).trans (W6_arg8 m ρ c)

theorem W7_arg9 : W7 m ρ c (Proc.devRef .tc main_arg9) = (m ((c : Thread nD τ).loc main_arg9)) :=
  (W7_of_ne m ρ c main_arg9 (by decide)).trans (W6_arg9 m ρ c)

/-! ## Across the third stretch and the third call -/

theorem W9_v3 : W9 m ρ c (Proc.devRef .tc main_v3) = W7 m ρ c (Proc.devRef .tc main_v3) := by
  dsimp only [W9, W8, hostOps2, hostOps2_1]
  after_results <;> rfl

theorem W9_v6 : W9 m ρ c (Proc.devRef .tc main_v6) = W7 m ρ c (Proc.devRef .tc main_v6) := by
  dsimp only [W9, W8, hostOps2, hostOps2_1]
  after_results <;> rfl

theorem W9_v29 : W9 m ρ c (Proc.devRef .tc main_v29) = W7 m ρ c (Proc.devRef .tc main_v29) := by
  dsimp only [W9, W8, hostOps2, hostOps2_1]
  after_results <;> rfl

theorem W9_arg6 : W9 m ρ c (Proc.devRef .tc main_arg6) = (m ((c : Thread nD τ).loc main_arg6)) := by
  refine Eq.trans ?_ (W7_arg6 m ρ c)
  dsimp only [W9, W8, hostOps2, hostOps2_1]
  after_results <;> rfl

theorem W9_arg7 : W9 m ρ c (Proc.devRef .tc main_arg7) = (m ((c : Thread nD τ).loc main_arg7)) := by
  refine Eq.trans ?_ (W7_arg7 m ρ c)
  dsimp only [W9, W8, hostOps2, hostOps2_1]
  after_results <;> rfl

theorem W9_arg8 : W9 m ρ c (Proc.devRef .tc main_arg8) = (m ((c : Thread nD τ).loc main_arg8)) := by
  refine Eq.trans ?_ (W7_arg8 m ρ c)
  dsimp only [W9, W8, hostOps2, hostOps2_1]
  after_results <;> rfl

theorem W9_arg9 : W9 m ρ c (Proc.devRef .tc main_arg9) = (m ((c : Thread nD τ).loc main_arg9)) := by
  refine Eq.trans ?_ (W7_arg9 m ρ c)
  dsimp only [W9, W8, hostOps2, hostOps2_1]
  after_results <;> rfl

theorem W10_v3 : W10 m ρ c (Proc.devRef .tc main_v3) = Cert.ReferenceIdeal.ReadP.val_main_v3 (F := F) (m ((c : Thread nD τ).loc main_arg1)) :=
  (W10_of_ne m ρ c main_v3 (by decide)).trans ((W9_v3 m ρ c).trans (W7_v3 m ρ c))

theorem W10_v6 : W10 m ρ c (Proc.devRef .tc main_v6) = Cert.ReferenceIdeal.ReadP.val_main_v6 (F := F) (m ((c : Thread nD τ).loc main_arg1)) :=
  (W10_of_ne m ρ c main_v6 (by decide)).trans ((W9_v6 m ρ c).trans (W7_v6 m ρ c))

theorem W10_v29 : W10 m ρ c (Proc.devRef .tc main_v29) = Cert.ReferenceIdeal.ReadP.val_main_v29 (F := F) (m ((c : Thread nD τ).loc main_arg1)) :=
  (W10_of_ne m ρ c main_v29 (by decide)).trans ((W9_v29 m ρ c).trans (W7_v29 m ρ c))

theorem W10_arg7 : W10 m ρ c (Proc.devRef .tc main_arg7) = (m ((c : Thread nD τ).loc main_arg7)) :=
  (W10_of_ne m ρ c main_arg7 (by decide)).trans (W9_arg7 m ρ c)

theorem W10_arg8 : W10 m ρ c (Proc.devRef .tc main_arg8) = (m ((c : Thread nD τ).loc main_arg8)) :=
  (W10_of_ne m ρ c main_arg8 (by decide)).trans (W9_arg8 m ρ c)

theorem W10_arg9 : W10 m ρ c (Proc.devRef .tc main_arg9) = (m ((c : Thread nD τ).loc main_arg9)) :=
  (W10_of_ne m ρ c main_arg9 (by decide)).trans (W9_arg9 m ρ c)

/-! ## Across the last stretch -/

theorem W11_arg8 : W11 m ρ c (Proc.devRef .tc main_arg8) = (m ((c : Thread nD τ).loc main_arg8)) := by
  refine Eq.trans ?_ (W10_arg8 m ρ c)
  dsimp only [W11, hostOps3]
  after_results <;> rfl

end Cert.Bridge.Carry

end
-- ==== Proof.LayerDefs.lean ====
/-
  One graph-convolution layer's aggregation, as a function of what it is given.

  After the layer's linear map h = x · w, every program here does the same thing: for each edge e (the given edges
  followed by one self loop per node) it takes row src e of h (a negative index counting from the end, as jnp's
  indexing reads it), scales it by the edge's weight nrm e, and adds it into row dst e of a zero array; then it adds
  the bias to every row. conv is that chain, relu the maximum with zero that follows it in the first two layers.
  Both programs apply these same operations, so the proof carries them as these two functions and never opens them.
-/
import proofs.«419398_j24824910970942_3_alg».proof.Proof.Gen.KernelIdeal

noncomputable section

namespace Cert.Bridge.Layers

open Idealize.ShloMosaic Cert.KernelIdeal Cert.KernelIdeal.Gen

variable {F : FTy → Type} [FloatOps F]

/-- The edge endpoints as gather start indices: a negative node index counts from the end (index + 100000), and the
    vector becomes a column [1700000, 1]. -/
def wrapIdx (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The aggregation of one layer: out[dst e] += nrm e * h[src e] over all edges e, from zero, then + bias on every row. -/
def conv (h : (⟨S100000x64, .f32⟩ : BufTy).Contents (Elt F)) (s d : (⟨S1700000, .i32⟩ : BufTy).Contents (Elt F))
    (nrm : (⟨S1700000, .f32⟩ : BufTy).Contents (Elt F)) (b : (⟨S64, .f32⟩ : BufTy).Contents (Elt F)) :
    (⟨S100000x64, .f32⟩ : BufTy).Contents (Elt F) :=
  addf
    (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 d)
      (mulf (Host.gather gather_S100000x64_S1700000x1_S1700000x64_1_0_n_n_0_1_164 h (wrapIdx s))
        (broadcastInDim S1700000x64 ![0, 1] bcast_S1700000x1_S1700000x64_0_1
          (broadcastInDim S1700000x1 ![0] bcast_S1700000_S1700000x1_0 nrm))))
    (broadcastInDim S100000x64 ![0, 1] bcast_S1x64_S100000x64_0_1 (broadcastInDim S1x64 ![1] bcast_S64_S1x64_1 b))

/-- max(h, 0), elementwise. -/
def relu (h : (⟨S100000x64, .f32⟩ : BufTy).Contents (Elt F)) : (⟨S100000x64, .f32⟩ : BufTy).Contents (Elt F) :=
  maximumf h (broadcastInDim S100000x64 ![] bcast_S_S100000x64 (constant S_ .f32 0x00000000#32))

end Cert.Bridge.Layers

end
-- ==== Proof.LayerK.lean ====
/-
  The kernel program's host operations between two of its calls, read as one layer's aggregation.

  Whatever the buffers hold when such a stretch starts (W), the buffer the next call reads holds conv (then relu, in the
  first two layers) of the previous call's result, the two endpoint vectors, the edge weights and the layer's bias as W
  has them: each operation's result is its function of its operands' contents, composed in program order.
-/
import proofs.«419398_j24824910970942_3_alg».proof.Proof.Gen.KernelIdeal.Launch
import proofs.«419398_j24824910970942_3_alg».proof.Proof.LayerDefs
import Idealize.ShloMosaic.Lib.StableHlo.Run

set_option maxRecDepth 16384
set_option maxHeartbeats 4000000

noncomputable section

namespace Cert.Bridge.LayerK

open Idealize.ShloMosaic Idealize.ShloMosaic.StableHlo Cert.KernelIdeal Cert.KernelIdeal.Gen Cert.Bridge.Layers

variable {F : FTy → Type} [FloatOps F] (W : Valuation τ sig (Elt F))

/-- After the first call: gather, scale, scatter-add, bias, relu of its result. -/
theorem stretch1 :
    StableHlo.after hostOps1_1 (StableHlo.after hostOps1 W) (Proc.devRef .tc main_v47)
      = relu (conv (W (Proc.devRef .tc main_v30)) (W (Proc.devRef .tc main_v3)) (W (Proc.devRef .tc main_v6)) (W (Proc.devRef .tc main_v29)) (W (Proc.devRef .tc main_arg3))) := by
  dsimp only [hostOps1, hostOps1_1]
  after_results
  rfl

/-- After the second call: the same of its result, with the second bias. -/
theorem stretch2 :
    StableHlo.after hostOps2_1 (StableHlo.after hostOps2 W) (Proc.devRef .tc main_v65)
      = relu (conv (W (Proc.devRef .tc main_v48)) (W (Proc.devRef .tc main_v3)) (W (Proc.devRef .tc main_v6)) (W (Proc.devRef .tc main_v29)) (W (Proc.devRef .tc main_arg5))) := by
  dsimp only [hostOps2, hostOps2_1]
  after_results
  rfl

/-- After the third call: the aggregation of its result with the third bias, and no relu. -/
theorem stretch3 :
    StableHlo.after hostOps3 W (Proc.devRef .tc main_v82)
      = conv (W (Proc.devRef .tc main_v66)) (W (Proc.devRef .tc main_v3)) (W (Proc.devRef .tc main_v6)) (W (Proc.devRef .tc main_v29)) (W (Proc.devRef .tc main_arg7)) := by
  dsimp only [hostOps3]
  after_results
  rfl

/-- The classifier's bias [16] laid out as one row [1, 16]. -/
theorem stretch3_bias :
    StableHlo.after hostOps3 W (Proc.devRef .tc main_v83) = shapeCast S1x16 (W (Proc.devRef .tc main_arg9)) shapeCasts_S16_S1x16 := by
  dsimp only [hostOps3]
  after_results
  rfl

end Cert.Bridge.LayerK

end
-- ==== Proof.LayerR.lean ====
/-
  The reference's three layers, read as the same aggregation.

  The reference applies, after each of its products, exactly the operations conv (and relu) name: its stage after the
  first product is relu (conv (x · w0) ...), after the second relu (conv (that · w1) ...), after the third conv with no
  relu. Each equation holds by unfolding the stages: the two sides are the same operations in the same order.
-/
import proofs.«419398_j24824910970942_3_alg».proof.Proof.RefRead
import proofs.«419398_j24824910970942_3_alg».proof.Proof.LayerDefs

set_option maxRecDepth 16384

noncomputable section

namespace Cert.Bridge.LayerR

open Idealize.ShloMosaic Cert.Bridge.Layers

variable {F : FTy → Type} [FloatOps F]

theorem ref_v47 (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S128x64, .f32⟩ : BufTy).Contents (Elt F)) (x3 : (⟨Cert.ReferenceIdeal.S64, .f32⟩ : BufTy).Contents (Elt F)) :
    Cert.ReferenceIdeal.ReadP.val_main_v47 (F := F) x0 x1 x2 x3
      = relu (conv (Cert.ReferenceIdeal.ReadP.val_main_v30 (F := F) x0 x2) (Cert.ReferenceIdeal.ReadP.val_main_v3 (F := F) x1) (Cert.ReferenceIdeal.ReadP.val_main_v6 (F := F) x1)
          (Cert.ReferenceIdeal.ReadP.val_main_v29 (F := F) x1) x3) := rfl

theorem ref_v65 (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S128x64, .f32⟩ : BufTy).Contents (Elt F)) (x3 : (⟨Cert.ReferenceIdeal.S64, .f32⟩ : BufTy).Contents (Elt F)) (x4 : (⟨Cert.ReferenceIdeal.S64x64, .f32⟩ : BufTy).Contents (Elt F)) (x5 : (⟨Cert.ReferenceIdeal.S64, .f32⟩ : BufTy).Contents (Elt F)) :
    Cert.ReferenceIdeal.ReadP.val_main_v65 (F := F) x0 x1 x2 x3 x4 x5
      = relu (conv (Cert.ReferenceIdeal.ReadP.val_main_v48 (F := F) x0 x1 x2 x3 x4) (Cert.ReferenceIdeal.ReadP.val_main_v3 (F := F) x1) (Cert.ReferenceIdeal.ReadP.val_main_v6 (F := F) x1)
          (Cert.ReferenceIdeal.ReadP.val_main_v29 (F := F) x1) x5) := rfl

theorem ref_v82 (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S128x64, .f32⟩ : BufTy).Contents (Elt F)) (x3 : (⟨Cert.ReferenceIdeal.S64, .f32⟩ : BufTy).Contents (Elt F)) (x4 : (⟨Cert.ReferenceIdeal.S64x64, .f32⟩ : BufTy).Contents (Elt F)) (x5 : (⟨Cert.ReferenceIdeal.S64, .f32⟩ : BufTy).Contents (Elt F)) (x6 : (⟨Cert.ReferenceIdeal.S64x64, .f32⟩ : BufTy).Contents (Elt F)) (x7 : (⟨Cert.ReferenceIdeal.S64, .f32⟩ : BufTy).Contents (Elt F)) :
    Cert.ReferenceIdeal.ReadP.val_main_v82 (F := F) x0 x1 x2 x3 x4 x5 x6 x7
      = conv (Cert.ReferenceIdeal.ReadP.val_main_v66 (F := F) x0 x1 x2 x3 x4 x5 x6) (Cert.ReferenceIdeal.ReadP.val_main_v3 (F := F) x1) (Cert.ReferenceIdeal.ReadP.val_main_v6 (F := F) x1)
          (Cert.ReferenceIdeal.ReadP.val_main_v29 (F := F) x1) x7 := rfl

end Cert.Bridge.LayerR

end
-- ==== Proof.LibRowTile.lean ====
/-
  A row tile of a matrix product is the product of the row tile.

  For a plain two-dimensional contraction (left operand [rows, K] contracted on its second axis, right operand
  [K, n] on its first, no batch axes) the result element at (r, c) is the sum over k of lhs (r, k) * rhs (k, c).
  So if a tile [m, K] of a taller left operand [M, K] holds, on its row r, the taller operand's row i, then the
  tile's product at (r, c) and the whole product at (i, c) are the same sum. The two contractions are given by
  their own dimension records, whose contraction index types differ; both sums are re-indexed over Fin K.
-/
import Idealize.ShloMosaic.PureOps.Ideal.Laws
import Idealize.ShloMosaic.Lib.ValueIdx

open scoped BigOperators

namespace Cert.Lib

open Idealize.ShloMosaic Idealize.ShloMosaic.ValueIdx

/-- A coordinate of an index depends on the axis only through the axis's number. -/
theorem idx_val_congr {s : Shape} (j : s.Idx) {p q : Nat} (hp : p < s.rank) (hq : q < s.rank) (h : p = q) :
    (j ⟨p, hp⟩).val = (j ⟨q, hq⟩).val := by subst h; rfl

section Axes

variable {sl sr so : Shape} (d : DotDims sl sr so)

/-- With no batch axes and one free axis a on the left, the left operand's index on a is the result index's
    first coordinate. -/
theorem lhsIdx_val_of_free {a : Fin sl.rank} (hb : d.lhsBatch = []) (hn : d.lhsNonContracting = [a])
    (j : so.Idx) (k : d.contr.Idx) (h0 : 0 < so.rank) : (d.lhsIdx j k a).val = (j ⟨0, h0⟩).val := by
  have hnb : a ∉ d.lhsBatch := by rw [hb]; simp
  have hmem : a ∈ d.lhsNonContracting := by rw [hn]; simp
  unfold DotDims.lhsIdx
  rw [dif_neg hnb, dif_pos hmem]
  simp only [Fin.val_cast]
  exact idx_val_congr j _ _ (by simp [hb, hn])

/-- With no batch axes, one free axis on the left and one free axis a on the right, the right operand's index on
    a is the result index's second coordinate. -/
theorem rhsIdx_val_of_free {a : Fin sr.rank} {al : Fin sl.rank} (hlb : d.lhsBatch = []) (hln : d.lhsNonContracting = [al])
    (hb : d.rhsBatch = []) (hn : d.rhsNonContracting = [a])
    (j : so.Idx) (k : d.contr.Idx) (h1 : 1 < so.rank) : (d.rhsIdx j k a).val = (j ⟨1, h1⟩).val := by
  have hnb : a ∉ d.rhsBatch := by rw [hb]; simp
  have hmem : a ∈ d.rhsNonContracting := by rw [hn]; simp
  unfold DotDims.rhsIdx
  rw [dif_neg hnb, dif_pos hmem]
  simp only [Fin.val_cast]
  exact idx_val_congr j _ _ (by simp [hlb, hln, hn])

end Axes

/-- The dimension numbers of a plain product [rows, K] · [K, n]: contract the left operand's second axis with the
    right operand's first; the free axes are the left's first and the right's second; no batch axes. -/
structure IsPlain {a K n : Nat} (d : DotDims ⟨2, ![a, K]⟩ ⟨2, ![K, n]⟩ ⟨2, ![a, n]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []
  rank : d.contr.rank = 1
  size : d.contr.size ⟨0, by omega⟩ = K

section Plain

variable {a K n : Nat} {d : DotDims ⟨2, ![a, K]⟩ ⟨2, ![K, n]⟩ ⟨2, ![a, n]⟩}

/-- The left operand is read at (row of the result, k). -/
theorem IsPlain.lhsIdx_eq (h : IsPlain d) (j : (⟨2, ![a, n]⟩ : Shape).Idx) (k : Fin K) :
    d.lhsIdx j ((contrEquiv1 d K h.rank h.size).symm k) = ix2 (j 0) k := by
  funext ax; apply Fin.ext
  match ax with
  | ⟨0, _⟩ => exact lhsIdx_val_of_free d (a := (0 : Fin 2)) h.lb h.ln j _ Nat.zero_lt_two
  | ⟨1, _⟩ =>
    exact (d.lhsIdx_val_of_single (cl := (1 : Fin 2)) h.lc j _).trans (contrEquiv1_symm_val d K h.rank h.size k)

/-- The right operand is read at (k, column of the result). -/
theorem IsPlain.rhsIdx_eq (h : IsPlain d) (j : (⟨2, ![a, n]⟩ : Shape).Idx) (k : Fin K) :
    d.rhsIdx j ((contrEquiv1 d K h.rank h.size).symm k) = ix2 k (j 1) := by
  funext ax; apply Fin.ext
  match ax with
  | ⟨0, _⟩ =>
    exact (d.rhsIdx_val_of_single (cr := (0 : Fin 2)) h.rc j _).trans (contrEquiv1_symm_val d K h.rank h.size k)
  | ⟨1, _⟩ => exact rhsIdx_val_of_free d (a := (1 : Fin 2)) (al := (0 : Fin 2)) h.lb h.ln h.rb h.rn j _ Nat.one_lt_two

/-- A plain product's contraction sum, over the contracted coordinate itself. -/
theorem IsPlain.sum_eq (h : IsPlain d) (l : (⟨2, ![a, K]⟩ : Shape).Idx → EReal) (r : (⟨2, ![K, n]⟩ : Shape).Idx → EReal)
    (j : (⟨2, ![a, n]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K h.rank h.size).symm]
  exact Finset.sum_congr rfl fun k _ => congrArg₂ (· * ·) (congrArg l (h.lhsIdx_eq j k)) (congrArg r (h.rhsIdx_eq j k))

end Plain

/-- A ROW TILE OF A PRODUCT IS THE PRODUCT OF THE ROW TILE: if row (y 0) of the tile lt is row (i 0) of the whole
    left operand l, and y, i name the same column, the two contraction sums are equal. -/
theorem sum_rowTile {m M K n : Nat}
    {dT : DotDims ⟨2, ![m, K]⟩ ⟨2, ![K, n]⟩ ⟨2, ![m, n]⟩} {dW : DotDims ⟨2, ![M, K]⟩ ⟨2, ![K, n]⟩ ⟨2, ![M, n]⟩}
    (hT : IsPlain dT) (hW : IsPlain dW)
    (lt : (⟨2, ![m, K]⟩ : Shape).Idx → EReal) (l : (⟨2, ![M, K]⟩ : Shape).Idx → EReal) (r : (⟨2, ![K, n]⟩ : Shape).Idx → EReal)
    (y : (⟨2, ![m, n]⟩ : Shape).Idx) (i : (⟨2, ![M, n]⟩ : Shape).Idx)
    (hrow : ∀ k : Fin K, lt (ix2 (y 0) k) = l (ix2 (i 0) k)) (hcol : y 1 = i 1) :
    ∑ k : dT.contr.Idx, lt (dT.lhsIdx y k) * r (dT.rhsIdx y k) = ∑ k : dW.contr.Idx, l (dW.lhsIdx i k) * r (dW.rhsIdx i k) := by
  rw [hT.sum_eq lt r y, hW.sum_eq l r i]
  exact Finset.sum_congr rfl fun k _ => by rw [hrow k, hcol]

end Cert.Lib
-- ==== Proof.TileProduct.lean ====
/-
  Each kernel body's stored value, read at one element of its tile, as the reference's whole-array operation read
  at the element of the whole array that the tile's element is.

  Every body loads a row tile xb : [10000, K] of the layer's input x : [100000, K] and the whole weight w : [K, n],
  and stores matmul(xb, w) into a zero accumulator: at (r, c) that is the sum over k of xb (r, k) * w (k, c). When
  row r of the tile is row i of x this is the sum over k of x (i, k) * w (k, c), the reference's dot_general at (i, c):
  no law of the extended reals is used beyond 0 + s = s, so nothing here needs the inputs finite.
  The last body also adds its [1, n] bias block, broadcast down the rows; the reference adds the bias vector
  broadcast to [1, n] and then to [100000, n]: both read the bias at the column c.
-/
import proofs.«419398_j24824910970942_3_alg».proof.Proof.Gen.KernelIdeal.Skeleton
import proofs.«419398_j24824910970942_3_alg».proof.Proof.Gen.ReferenceIdeal
import proofs.«419398_j24824910970942_3_alg».proof.Proof.LibRowTile
import Idealize.ShloMosaic.Lib.Pipeline.Value
import Idealize.ShloMosaic.Lib.ValueIdx
import Idealize.ShloMosaic.PureOps.Ideal.Laws

noncomputable section

namespace Cert.Bridge.Tile

open Idealize.ShloMosaic Idealize.ShloMosaic.ValueIdx Cert.Lib
open Cert.KernelIdeal Cert.KernelIdeal.Gen

/-! ## The six contractions are plain products -/

theorem plainK0 : IsPlain dot_S10000x128_S128x64_S10000x64_1_0_0_1_n_n := ⟨rfl, rfl, rfl, rfl, rfl, rfl, rfl, rfl⟩
theorem plainK1 : IsPlain dot_S10000x64_S64x64_S10000x64_1_0_0_1_n_n := ⟨rfl, rfl, rfl, rfl, rfl, rfl, rfl, rfl⟩
theorem plainK3 : IsPlain dot_S10000x64_S64x16_S10000x16_1_0_0_1_n_n := ⟨rfl, rfl, rfl, rfl, rfl, rfl, rfl, rfl⟩
theorem plainR0 : IsPlain Cert.ReferenceIdeal.dot_S100000x128_S128x64_S100000x64_1_0_0_1_n_n := ⟨rfl, rfl, rfl, rfl, rfl, rfl, rfl, rfl⟩
theorem plainR1 : IsPlain Cert.ReferenceIdeal.dot_S100000x64_S64x64_S100000x64_1_0_0_1_n_n := ⟨rfl, rfl, rfl, rfl, rfl, rfl, rfl, rfl⟩
theorem plainR3 : IsPlain Cert.ReferenceIdeal.dot_S100000x64_S64x16_S100000x16_1_0_0_1_n_n := ⟨rfl, rfl, rfl, rfl, rfl, rfl, rfl, rfl⟩

/-! ## The first layer's body: [10000, 128] · [128, 64] -/

theorem pay0_apply (xb : Vec Ideal S10000x128 .f32) (wb : Vec Ideal S128x64 .f32)
    (x : Vec Ideal Cert.ReferenceIdeal.S100000x128 .f32) (w : Vec Ideal Cert.ReferenceIdeal.S128x64 .f32)
    (y : S10000x64.Idx) (i : Cert.ReferenceIdeal.S100000x64.Idx)
    (hrow : ∀ k : Fin 128, xb (ix2 (y 0) k) = x (ix2 (i 0) k)) (hw : wb = w) (hcol : y 1 = i 1) :
    k0_pay1 (F := Ideal) xb wb y
      = Host.dotGeneral (F := Ideal) (φ₁ := .f32) (φ₂ := .f32) Cert.ReferenceIdeal.dot_S100000x128_S128x64_S100000x64_1_0_0_1_n_n none x w i := by
  subst hw
  unfold k0_pay1
  simp only [Host.dotGeneral]
  rw [Ideal.dotGeneral_apply]
  refine (Ideal.matmul_constant_zero_apply dot_S10000x128_S128x64_S10000x64_1_0_0_1_n_n none xb wb y).trans ?_
  exact sum_rowTile plainK0 plainR0 xb x wb y i hrow hcol

/-! ## The second and third layers' bodies: [10000, 64] · [64, 64] (the loaded tile first cast to its own shape) -/

theorem pay1_apply (xb : Vec Ideal S10000x64 .f32) (wb : Vec Ideal S64x64 .f32)
    (x : Vec Ideal Cert.ReferenceIdeal.S100000x64 .f32) (w : Vec Ideal Cert.ReferenceIdeal.S64x64 .f32)
    (y : S10000x64.Idx) (i : Cert.ReferenceIdeal.S100000x64.Idx)
    (hrow : ∀ k : Fin 64, xb (ix2 (y 0) k) = x (ix2 (i 0) k)) (hw : wb = w) (hcol : y 1 = i 1) :
    k1_pay1 (F := Ideal) xb wb y
      = Host.dotGeneral (F := Ideal) (φ₁ := .f32) (φ₂ := .f32) Cert.ReferenceIdeal.dot_S100000x64_S64x64_S100000x64_1_0_0_1_n_n none x w i := by
  subst hw
  unfold k1_pay1
  simp only [Host.dotGeneral]
  rw [Ideal.dotGeneral_apply]
  refine (Ideal.matmul_constant_zero_apply dot_S10000x64_S64x64_S10000x64_1_0_0_1_n_n none _ wb y).trans ?_
  refine sum_rowTile plainK1 plainR1 _ x wb y i (fun k => ?_) hcol
  rw [shapeCast_self]
  exact hrow k

theorem pay2_apply (xb : Vec Ideal S10000x64 .f32) (wb : Vec Ideal S64x64 .f32)
    (x : Vec Ideal Cert.ReferenceIdeal.S100000x64 .f32) (w : Vec Ideal Cert.ReferenceIdeal.S64x64 .f32)
    (y : S10000x64.Idx) (i : Cert.ReferenceIdeal.S100000x64.Idx)
    (hrow : ∀ k : Fin 64, xb (ix2 (y 0) k) = x (ix2 (i 0) k)) (hw : wb = w) (hcol : y 1 = i 1) :
    k2_pay1 (F := Ideal) xb wb y
      = Host.dotGeneral (F := Ideal) (φ₁ := .f32) (φ₂ := .f32) Cert.ReferenceIdeal.dot_S100000x64_S64x64_S100000x64_1_0_0_1_n_n none x w i := by
  subst hw
  unfold k2_pay1
  simp only [Host.dotGeneral]
  rw [Ideal.dotGeneral_apply]
  refine (Ideal.matmul_constant_zero_apply dot_S10000x64_S64x64_S10000x64_1_0_0_1_n_n none _ wb y).trans ?_
  refine sum_rowTile plainK1 plainR1 _ x wb y i (fun k => ?_) hcol
  rw [shapeCast_self]
  exact hrow k

/-! ## The classifier's body: [10000, 64] · [64, 16] plus the bias row -/

/-- The bias block [1, 16], cast to its own shape and broadcast down the 10000 rows, read at (r, c): the block at (0, c). -/
theorem biasTile_apply (bb : Vec Ideal S1x16 .f32) (y : S10000x16.Idx) :
    broadcastTo S10000x16 (shapeCast S1x16 bb shapeCasts_S1x16_S1x16) broadcasts_S1x16_S10000x16 y = bb (ix2 (0 : Fin 1) (y 1)) := by
  rw [shapeCast_self]
  exact broadcastTo_apply bb broadcasts_S1x16_S10000x16 y (ix2 (0 : Fin 1) (y 1)) (fun a => match a with
    | ⟨0, _⟩ => by show 0 = if (1 : Nat) = 1 then 0 else _; rw [if_pos rfl]
    | ⟨1, _⟩ => by show (y 1).val = if (16 : Nat) = 1 then 0 else (y 1).val; rw [if_neg (by decide)])

/-- The reference's bias vector [16], broadcast to [1, 16] and then to [100000, 16], read at (i, c): the vector at c. -/
theorem biasWhole_apply (b : Vec Ideal Cert.ReferenceIdeal.S16 .f32) (i : Cert.ReferenceIdeal.S100000x16.Idx) :
    broadcastInDim Cert.ReferenceIdeal.S100000x16 ![0, 1] Cert.ReferenceIdeal.Gen.bcast_S1x16_S100000x16_0_1
        (broadcastInDim Cert.ReferenceIdeal.S1x16 ![1] Cert.ReferenceIdeal.Gen.bcast_S16_S1x16_1 b) i = b (ix1 (i 1)) := by
  refine (broadcastInDim_apply _ Cert.ReferenceIdeal.Gen.bcast_S1x16_S100000x16_0_1 _ i (ix2 (0 : Fin 1) (i 1)) (fun a => match a with
    | ⟨0, _⟩ => by show 0 = if (1 : Nat) = 1 then 0 else (i 0).val; rw [if_pos rfl]
    | ⟨1, _⟩ => by show (i 1).val = if (16 : Nat) = 1 then 0 else (i 1).val; rw [if_neg (by decide)])).trans ?_
  exact broadcastInDim_apply _ Cert.ReferenceIdeal.Gen.bcast_S16_S1x16_1 b (ix2 (0 : Fin 1) (i 1)) (ix1 (i 1)) (fun a => match a with
    | ⟨0, _⟩ => by show (i 1).val = if (16 : Nat) = 1 then 0 else (i 1).val; rw [if_neg (by decide)])

theorem pay3_apply (xb : Vec Ideal S10000x64 .f32) (wb : Vec Ideal S64x16 .f32) (bb : Vec Ideal S1x16 .f32)
    (x : Vec Ideal Cert.ReferenceIdeal.S100000x64 .f32) (w : Vec Ideal Cert.ReferenceIdeal.S64x16 .f32) (b : Vec Ideal Cert.ReferenceIdeal.S16 .f32)
    (y : S10000x16.Idx) (i : Cert.ReferenceIdeal.S100000x16.Idx)
    (hrow : ∀ k : Fin 64, xb (ix2 (y 0) k) = x (ix2 (i 0) k)) (hw : wb = w) (hcol : y 1 = i 1)
    (hb : ∀ j : Fin 16, bb (ix2 (0 : Fin 1) j) = b (ix1 j)) :
    k3_pay1 (F := Ideal) xb wb bb y
      = addf (Host.dotGeneral (F := Ideal) (φ₁ := .f32) (φ₂ := .f32) Cert.ReferenceIdeal.dot_S100000x64_S64x16_S100000x16_1_0_0_1_n_n none x w)
          (broadcastInDim Cert.ReferenceIdeal.S100000x16 ![0, 1] Cert.ReferenceIdeal.Gen.bcast_S1x16_S100000x16_0_1
            (broadcastInDim Cert.ReferenceIdeal.S1x16 ![1] Cert.ReferenceIdeal.Gen.bcast_S16_S1x16_1 b)) i := by
  subst hw
  unfold k3_pay1
  show FloatOps.matmul (F := Ideal) (φ₁ := .f32) (φ₂ := .f32) dot_S10000x64_S64x16_S10000x16_1_0_0_1_n_n none (shapeCast S10000x64 xb shapeCasts_S10000x64_S10000x64) wb
        (constant S10000x16 .f32 0x00000000#32) y
      + broadcastTo S10000x16 (shapeCast S1x16 bb shapeCasts_S1x16_S1x16) broadcasts_S1x16_S10000x16 y
    = FloatOps.dotGeneral (F := Ideal) (φ₁ := .f32) (φ₂ := .f32) Cert.ReferenceIdeal.dot_S100000x64_S64x16_S100000x16_1_0_0_1_n_n none .single x wb i
      + broadcastInDim Cert.ReferenceIdeal.S100000x16 ![0, 1] Cert.ReferenceIdeal.Gen.bcast_S1x16_S100000x16_0_1
          (broadcastInDim Cert.ReferenceIdeal.S1x16 ![1] Cert.ReferenceIdeal.Gen.bcast_S16_S1x16_1 b) i
  rw [biasTile_apply, biasWhole_apply, Ideal.dotGeneral_apply]
  have hbias : bb (ix2 (0 : Fin 1) (y 1)) = b (ix1 (i 1)) :=
    (hb (y 1)).trans (congrArg (fun j : Fin 16 => b (ix1 j)) hcol)
  have hdot : FloatOps.matmul (F := Ideal) (φ₁ := .f32) (φ₂ := .f32) dot_S10000x64_S64x16_S10000x16_1_0_0_1_n_n none
        (shapeCast S10000x64 xb shapeCasts_S10000x64_S10000x64) wb (constant S10000x16 .f32 0x00000000#32) y
      = ∑ k : Cert.ReferenceIdeal.dot_S100000x64_S64x16_S100000x16_1_0_0_1_n_n.contr.Idx,
          x (Cert.ReferenceIdeal.dot_S100000x64_S64x16_S100000x16_1_0_0_1_n_n.lhsIdx i k)
            * wb (Cert.ReferenceIdeal.dot_S100000x64_S64x16_S100000x16_1_0_0_1_n_n.rhsIdx i k) := by
    refine (Ideal.matmul_constant_zero_apply dot_S10000x64_S64x16_S10000x16_1_0_0_1_n_n none _ wb y).trans ?_
    refine sum_rowTile plainK3 plainR3 _ x wb y i (fun k => ?_) hcol
    rw [shapeCast_self]
    exact hrow k
  exact congrArg₂ (· + ·) hdot hbias

end Cert.Bridge.Tile

end
-- ==== Proof.Region0.lean ====
/-
  The first layer's product, as the whole array it leaves.

  The call runs over 10 grid points; point t loads rows 10000 t .. 10000 t + 9999 of x : [100000, 128] and the whole
  weight [128, 64], and writes back rows 10000 t .. 10000 t + 9999 of the result [100000, 64]. Row r of the tile at
  point t is row 10000 t + r of x, so the written block is the block of the whole product x · w at those rows; the
  ten blocks tile the result (row i lies in the block of point i / 10000), so the array ends at x · w.
  Stated for any contents V of the buffers at the call's entry.
-/
import proofs.«419398_j24824910970942_3_alg».proof.Proof.Gen.KernelIdeal.Frame
import proofs.«419398_j24824910970942_3_alg».proof.Proof.TileProduct
import Idealize.ShloMosaic.Lib.Pipeline.Value

set_option maxRecDepth 16384

noncomputable section

namespace Cert.Bridge.Region0

open Idealize.ShloMosaic Idealize.ShloMosaic.TcCoe Idealize.ShloMosaic.ValueIdx
open Idealize.SL Idealize.SL.Sem
open Cert.KernelIdeal Cert.KernelIdeal.Gen Cert.Bridge.Tile

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input tile moves with the output tile along the rows and sits at
    column block 0; the weight is block (0, 0) at every point; the output tile at point t is row block t, column block 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- The whole product the call computes, of the arrays as the call finds them. -/
abbrev product (c : Dev nD) : FVec Ideal Cert.ReferenceIdeal.S100000x64 .f32 :=
  Host.dotGeneral (F := Ideal) (φ₁ := .f32) (φ₂ := .f32) Cert.ReferenceIdeal.dot_S100000x128_S128x64_S100000x64_1_0_0_1_n_n none (V c main_arg0) (V c main_arg2)

/-- What point t writes back is block t of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5⟩ := idx_facts t
  funext y
  show k0_pay1 (F := Ideal) (iblk0 V c 0 t) (iblk0 V c 1 t) y = product V c (((cfg0.win 2).blk t).view.emb y)
  refine pay0_apply (iblk0 V c 0 t) (iblk0 V c 1 t) (V c main_arg0) (V c main_arg2) y (((cfg0.win 2).blk t).view.emb y) ?_ ?_ ?_
  · -- row (y 0) of the tile is row (10000 t + y 0) of the input
    intro k
    show V c main_arg0 (((cfg0.win 0).blk t).view.emb (ix2 (y 0) k)) = V c main_arg0 (ix2 ((((cfg0.win 2).blk t).view.emb y) 0) k)
    have h0 : ((cfg0.win 0).blk t).view.emb (ix2 (y 0) k) = ix2 ((((cfg0.win 2).blk t).view.emb y) 0) k := by
      funext a; apply Fin.ext
      match a with
      | ⟨0, _⟩ => show win0_0.index t (0 : Fin 2) * 10000 + 1 * (y 0).val = win0_2.index t (0 : Fin 2) * 10000 + 1 * (y 0).val; omega
      | ⟨1, _⟩ => show win0_0.index t (1 : Fin 2) * 128 + 1 * k.val = k.val; omega
    rw [h0]
    rfl
  · -- the weight's block is the whole weight
    funext z
    show V c main_arg2 (((cfg0.win 1).blk t).view.emb z) = V c main_arg2 z
    have h1 : ((cfg0.win 1).blk t).view.emb z = z := by
      funext a; apply Fin.ext
      match a with
      | ⟨0, _⟩ => show win0_1.index t (0 : Fin 2) * 128 + 1 * (z 0).val = (z 0).val; omega
      | ⟨1, _⟩ => show win0_1.index t (1 : Fin 2) * 64 + 1 * (z 1).val = (z 1).val; omega
    rw [h1]
  · -- the column is kept
    apply Fin.ext
    show (y 1).val = win0_2.index t (1 : Fin 2) * 64 + 1 * (y 1).val
    omega

/-- An index of the result is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- The ten blocks tile the result: row i is in the block of point i / 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  have ht : t.val = (i 0).val / 10000 := rfl
  obtain ⟨e0, e1, e2, e3, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The result array after the call is the whole product of the arrays the call found. -/
theorem final (c : Dev nD) : (dat0 V c).arrAt 2 cfg0.N = product V c :=
  (dat0 V c).arrAt_eq_of_cover 2 (product V c) (fun t _ => flushed_eq V c t) cover

end Cert.Bridge.Region0

end
-- ==== Proof.Region1.lean ====
/-
  The second layer's product, as the whole array it leaves.

  The call runs over 10 grid points; point t loads rows 10000 t .. 10000 t + 9999 of the layer's input h : [100000, 64]
  and the whole weight [64, 64], and writes back rows 10000 t .. 10000 t + 9999 of the result [100000, 64]. Row r of the
  tile at point t is row 10000 t + r of h, so the written block is the block of the whole product h · w at those rows;
  the ten blocks tile the result (row i lies in the block of point i / 10000), so the array ends at h · w.
  Stated for any contents V of the buffers at the call's entry.
-/
import proofs.«419398_j24824910970942_3_alg».proof.Proof.Gen.KernelIdeal.Frame
import proofs.«419398_j24824910970942_3_alg».proof.Proof.TileProduct
import Idealize.ShloMosaic.Lib.Pipeline.Value

set_option maxRecDepth 16384

noncomputable section

namespace Cert.Bridge.Region1

open Idealize.ShloMosaic Idealize.ShloMosaic.TcCoe Idealize.ShloMosaic.ValueIdx
open Idealize.SL Idealize.SL.Sem
open Cert.KernelIdeal Cert.KernelIdeal.Gen Cert.Bridge.Tile

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input tile moves with the output tile along the rows and sits at
    column block 0; the weight is block (0, 0) at every point; the output tile at point t is row block t, column block 0. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- The whole product the call computes, of the arrays as the call finds them. -/
abbrev product (c : Dev nD) : FVec Ideal Cert.ReferenceIdeal.S100000x64 .f32 :=
  Host.dotGeneral (F := Ideal) (φ₁ := .f32) (φ₂ := .f32) Cert.ReferenceIdeal.dot_S100000x64_S64x64_S100000x64_1_0_0_1_n_n none (V c main_v47) (V c main_arg4)

/-- What point t writes back is block t of the whole product. -/
theorem flushed_eq (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x64) hz]
  obtain ⟨e0, e1, e2, e3, e4, e5⟩ := idx_facts t
  funext y
  show k1_pay1 (F := Ideal) (iblk1 V c 0 t) (iblk1 V c 1 t) y = product V c (((cfg1.win 2).blk t).view.emb y)
  refine pay1_apply (iblk1 V c 0 t) (iblk1 V c 1 t) (V c main_v47) (V c main_arg4) y (((cfg1.win 2).blk t).view.emb y) ?_ ?_ ?_
  · -- row (y 0) of the tile is row (10000 t + y 0) of the layer's input
    intro k
    show V c main_v47 (((cfg1.win 0).blk t).view.emb (ix2 (y 0) k)) = V c main_v47 (ix2 ((((cfg1.win 2).blk t).view.emb y) 0) k)
    have h0 : ((cfg1.win 0).blk t).view.emb (ix2 (y 0) k) = ix2 ((((cfg1.win 2).blk t).view.emb y) 0) k := by
      funext a; apply Fin.ext
      match a with
      | ⟨0, _⟩ => show win1_0.index t (0 : Fin 2) * 10000 + 1 * (y 0).val = win1_2.index t (0 : Fin 2) * 10000 + 1 * (y 0).val; omega
      | ⟨1, _⟩ => show win1_0.index t (1 : Fin 2) * 64 + 1 * k.val = k.val; omega
    rw [h0]
    rfl
  · -- the weight's block is the whole weight
    funext z
    show V c main_arg4 (((cfg1.win 1).blk t).view.emb z) = V c main_arg4 z
    have h1 : ((cfg1.win 1).blk t).view.emb z = z := by
      funext a; apply Fin.ext
      match a with
      | ⟨0, _⟩ => show win1_1.index t (0 : Fin 2) * 64 + 1 * (z 0).val = (z 0).val; omega
      | ⟨1, _⟩ => show win1_1.index t (1 : Fin 2) * 64 + 1 * (z 1).val = (z 1).val; omega
    rw [h1]
  · -- the column is kept
    apply Fin.ext
    show (y 1).val = win1_2.index t (1 : Fin 2) * 64 + 1 * (y 1).val
    omega

/-- An index of the result is in point t's block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v48).slice (win1_2.rect t)).set ↔ _
  rw [View.set_slice_whole, Rect.mem_set_unit]
  exact Iff.rfl

/-- The ten blocks tile the result: row i is in the block of point i / 10000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  have ht : t.val = (i 0).val / 10000 := rfl
  obtain ⟨e0, e1, e2, e3, e4, e5⟩ := idx_facts t
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The result array after the call is the whole product of the arrays the call found. -/
theorem final (c : Dev nD) : (dat1 V c).arrAt 2 cfg1.N = product V c :=
  (dat1 V c).arrAt_eq_of_cover 2 (product V c) (fun t _ => flushed_eq V c t) cover

end Cert.Bridge.Region1

end
-- ==== Proof.Region2.lean ====
/-
  The third layer's product, as the whole array it leaves.

  The call runs over 10 grid points; point t loads rows 10000 t .. 10000 t + 9999 of the layer's input h : [100000, 64]
  and the whole weight [64, 64], and writes back rows 10000 t .. 10000 t + 9999 of the result [100000, 64]. Row r of the
  tile at point t is row 10000 t + r of h, so the written block is the block of the whole product h · w at those rows;
  the ten blocks tile the result (row i lies in the block of point i / 10000), so the array ends at h · w.
  Stated for any contents V of the buffers at the call's entry.
-/
import proofs.«419398_j24824910970942_3_alg».proof.Proof.Gen.KernelIdeal.Frame
import proofs.«419398_j24824910970942_3_alg».proof.Proof.TileProduct
import Idealize.ShloMosaic.Lib.Pipeline.Value

set_option maxRecDepth 16384

noncomputable section

namespace Cert.Bridge.Region2

open Idealize.ShloMosaic Idealize.ShloMosaic.TcCoe Idealize.ShloMosaic.ValueIdx
open Idealize.SL Idealize.SL.Sem
open Cert.KernelIdeal Cert.KernelIdeal.Gen Cert.Bridge.Tile

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input tile moves with the output tile along the rows and sits at
    column block 0; the weight is block (0, 0) at every point; the output tile at point t is row block t, column block 0. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- The whole product the call computes, of the arrays as the call finds them. -/
abbrev product (c : Dev nD) : FVec Ideal Cert.ReferenceIdeal.S100000x64 .f32 :=
  Host.dotGeneral (F := Ideal) (φ₁ := .f32) (φ₂ := .f32) Cert.ReferenceIdeal.dot_S100000x64_S64x64_S100000x64_1_0_0_1_n_n none (V c main_v65) (V c main_arg6)

/-- What point t writes back is block t of the whole product. -/
theorem flushed_eq (c : Dev nD) (t : Fin cfg2.N) :
    (dat2 V c).flushed 2 t = ((cfg2.win 2).blk t).view.read (Elt Ideal) (product V c) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨e0, e1, e2, e3, e4, e5⟩ := idx_facts t
  funext y
  show k2_pay1 (F := Ideal) (iblk2 V c 0 t) (iblk2 V c 1 t) y = product V c (((cfg2.win 2).blk t).view.emb y)
  refine pay2_apply (iblk2 V c 0 t) (iblk2 V c 1 t) (V c main_v65) (V c main_arg6) y (((cfg2.win 2).blk t).view.emb y) ?_ ?_ ?_
  · -- row (y 0) of the tile is row (10000 t + y 0) of the layer's input
    intro k
    show V c main_v65 (((cfg2.win 0).blk t).view.emb (ix2 (y 0) k)) = V c main_v65 (ix2 ((((cfg2.win 2).blk t).view.emb y) 0) k)
    have h0 : ((cfg2.win 0).blk t).view.emb (ix2 (y 0) k) = ix2 ((((cfg2.win 2).blk t).view.emb y) 0) k := by
      funext a; apply Fin.ext
      match a with
      | ⟨0, _⟩ => show win2_0.index t (0 : Fin 2) * 10000 + 1 * (y 0).val = win2_2.index t (0 : Fin 2) * 10000 + 1 * (y 0).val; omega
      | ⟨1, _⟩ => show win2_0.index t (1 : Fin 2) * 64 + 1 * k.val = k.val; omega
    rw [h0]
    rfl
  · -- the weight's block is the whole weight
    funext z
    show V c main_arg6 (((cfg2.win 1).blk t).view.emb z) = V c main_arg6 z
    have h1 : ((cfg2.win 1).blk t).view.emb z = z := by
      funext a; apply Fin.ext
      match a with
      | ⟨0, _⟩ => show win2_1.index t (0 : Fin 2) * 64 + 1 * (z 0).val = (z 0).val; omega
      | ⟨1, _⟩ => show win2_1.index t (1 : Fin 2) * 64 + 1 * (z 1).val = (z 1).val; omega
    rw [h1]
  · -- the column is kept
    apply Fin.ext
    show (y 1).val = win2_2.index t (1 : Fin 2) * 64 + 1 * (y 1).val
    omega

/-- An index of the result is in point t's block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v66).slice (win2_2.rect t)).set ↔ _
  rw [View.set_slice_whole, Rect.mem_set_unit]
  exact Iff.rfl

/-- The ten blocks tile the result: row i is in the block of point i / 10000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  have ht : t.val = (i 0).val / 10000 := rfl
  obtain ⟨e0, e1, e2, e3, e4, e5⟩ := idx_facts t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The result array after the call is the whole product of the arrays the call found. -/
theorem final (c : Dev nD) : (dat2 V c).arrAt 2 cfg2.N = product V c :=
  (dat2 V c).arrAt_eq_of_cover 2 (product V c) (fun t _ => flushed_eq V c t) cover

end Cert.Bridge.Region2

end
-- ==== Proof.Region3.lean ====
/-
  The classifier's call, as the whole array it leaves.

  The call runs over 10 grid points; point t loads rows 10000 t .. 10000 t + 9999 of the last layer's output
  h : [100000, 64], the whole weight [64, 16] and the whole bias row [1, 16], and writes back rows
  10000 t .. 10000 t + 9999 of the logits [100000, 16]: the tile's product plus the bias row on every row. Row r of
  the tile at point t is row 10000 t + r of h, so the written block is the block of h · w + bias at those rows; the
  ten blocks tile the result, so the array ends at h · w + bias, the bias vector read at the column.
  Stated for any contents V of the buffers at the call's entry, and any vector b whose one-row layout the bias buffer holds.
-/
import proofs.«419398_j24824910970942_3_alg».proof.Proof.Gen.KernelIdeal.Frame
import proofs.«419398_j24824910970942_3_alg».proof.Proof.TileProduct
import Idealize.ShloMosaic.Lib.Pipeline.Value

set_option maxRecDepth 16384

noncomputable section

namespace Cert.Bridge.Region3

open Idealize.ShloMosaic Idealize.ShloMosaic.TcCoe Idealize.ShloMosaic.ValueIdx
open Idealize.SL Idealize.SL.Sem
open Cert.KernelIdeal Cert.KernelIdeal.Gen Cert.Bridge.Tile

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input tile moves with the output tile along the rows and sits at
    column block 0; the weight and the bias row are block (0, 0) at every point; the output tile at point t is row
    block t, column block 0. -/
theorem idx_facts : ∀ t : Fin cfg3.N, win3_0.index t (0 : Fin 2) = win3_3.index t (0 : Fin 2)
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (1 : Fin 2) = 0
    ∧ win3_3.index t (0 : Fin 2) = t.val :=
  (by decide +kernel : ∀ t : Fin grid3.N, _)

/-- The logits the call computes, of the arrays as the call finds them and the bias vector b. -/
abbrev logits (c : Dev nD) (b : Vec Ideal Cert.ReferenceIdeal.S16 .f32) : FVec Ideal Cert.ReferenceIdeal.S100000x16 .f32 :=
  addf (Host.dotGeneral (F := Ideal) (φ₁ := .f32) (φ₂ := .f32) Cert.ReferenceIdeal.dot_S100000x64_S64x16_S100000x16_1_0_0_1_n_n none (V c main_v82) (V c main_arg8))
    (broadcastInDim Cert.ReferenceIdeal.S100000x16 ![0, 1] Cert.ReferenceIdeal.Gen.bcast_S1x16_S100000x16_0_1
      (broadcastInDim Cert.ReferenceIdeal.S1x16 ![1] Cert.ReferenceIdeal.Gen.bcast_S16_S1x16_1 b))

/-- What point t writes back is block t of the logits. -/
theorem flushed_eq (c : Dev nD) (b : Vec Ideal Cert.ReferenceIdeal.S16 .f32)
    (hb : ∀ j : Fin 16, V c main_v83 (ix2 (0 : Fin 1) j) = b (ix1 j)) (t : Fin cfg3.N) :
    (dat3 V c).flushed 3 t = ((cfg3.win 3).blk t).view.read (Elt Ideal) (logits V c b) := by
  show (cfg3.win 3).cut (grid3.coords t) ((dat3 V c).after 3 t) = _
  rw [after3_3]
  unfold out3_3
  rw [View.canon_unit_zero hz]
  simp only [View.ld_unit_zero (S := S10000x64) hz, View.ld_unit_zero (S := S64x16) hz, View.ld_unit_zero (S := S1x16) hz]
  obtain ⟨e0, e1, e2, e3, e4, e5, e6, e7⟩ := idx_facts t
  funext y
  show k3_pay1 (F := Ideal) (iblk3 V c 0 t) (iblk3 V c 1 t) (iblk3 V c 2 t) y = logits V c b (((cfg3.win 3).blk t).view.emb y)
  refine pay3_apply (iblk3 V c 0 t) (iblk3 V c 1 t) (iblk3 V c 2 t) (V c main_v82) (V c main_arg8) b y (((cfg3.win 3).blk t).view.emb y) ?_ ?_ ?_ ?_
  · -- row (y 0) of the tile is row (10000 t + y 0) of the layer's output
    intro k
    show V c main_v82 (((cfg3.win 0).blk t).view.emb (ix2 (y 0) k)) = V c main_v82 (ix2 ((((cfg3.win 3).blk t).view.emb y) 0) k)
    have h0 : ((cfg3.win 0).blk t).view.emb (ix2 (y 0) k) = ix2 ((((cfg3.win 3).blk t).view.emb y) 0) k := by
      funext a; apply Fin.ext
      match a with
      | ⟨0, _⟩ => show win3_0.index t (0 : Fin 2) * 10000 + 1 * (y 0).val = win3_3.index t (0 : Fin 2) * 10000 + 1 * (y 0).val; omega
      | ⟨1, _⟩ => show win3_0.index t (1 : Fin 2) * 64 + 1 * k.val = k.val; omega
    rw [h0]
    rfl
  · -- the weight's block is the whole weight
    funext z
    show V c main_arg8 (((cfg3.win 1).blk t).view.emb z) = V c main_arg8 z
    have h1 : ((cfg3.win 1).blk t).view.emb z = z := by
      funext a; apply Fin.ext
      match a with
      | ⟨0, _⟩ => show win3_1.index t (0 : Fin 2) * 64 + 1 * (z 0).val = (z 0).val; omega
      | ⟨1, _⟩ => show win3_1.index t (1 : Fin 2) * 16 + 1 * (z 1).val = (z 1).val; omega
    rw [h1]
  · -- the column is kept
    apply Fin.ext
    show (y 1).val = win3_3.index t (1 : Fin 2) * 16 + 1 * (y 1).val
    omega
  · -- the bias block is the whole bias row, which holds the vector b
    intro j
    show V c main_v83 (((cfg3.win 2).blk t).view.emb (ix2 (0 : Fin 1) j)) = b (ix1 j)
    have h2 : ((cfg3.win 2).blk t).view.emb (ix2 (0 : Fin 1) j) = ix2 (0 : Fin 1) j := by
      funext a; apply Fin.ext
      match a with
      | ⟨0, _⟩ => show win3_2.index t (0 : Fin 2) * 1 + 1 * 0 = 0; omega
      | ⟨1, _⟩ => show win3_2.index t (1 : Fin 2) * 16 + 1 * j.val = j.val; omega
    rw [h2]
    exact hb j

/-- An index of the result is in point t's block iff each coordinate is in the block's range on its axis. -/
theorem mem_blk (t : Fin cfg3.N) (i : S100000x16.Idx) :
    i ∈ ((cfg3.win 3).blk t).view.set ↔ ∀ a : Fin 2, win3_3.index t a * S10000x16.size a ≤ (i a).val ∧ (i a).val < win3_3.index t a * S10000x16.size a + S10000x16.size a := by
  show i ∈ ((View.whole main_v84).slice (win3_3.rect t)).set ↔ _
  rw [View.set_slice_whole, Rect.mem_set_unit]
  exact Iff.rfl

/-- The ten blocks tile the result: row i is in the block of point i / 10000. -/
theorem cover (i : S100000x16.Idx) : ∃ t : Fin cfg3.N, (cfg3.win 3).flush t = true ∧ i ∈ ((cfg3.win 3).blk t).view.set := by
  have hi0 : (i 0).val < 100000 := (i 0).isLt
  have hi1 : (i 1).val < 16 := (i 1).isLt
  have hN : cfg3.N = 10 := N_3
  let t : Fin cfg3.N := ⟨(i 0).val / 10000, by rw [hN]; omega⟩
  have ht : t.val = (i 0).val / 10000 := rfl
  obtain ⟨e0, e1, e2, e3, e4, e5, e6, e7⟩ := idx_facts t
  refine ⟨t, flush3_3 t, ?_⟩
  rw [mem_blk]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 16 ≤ (i 1).val ∧ (i 1).val < win3_3.index t (1 : Fin 2) * 16 + 16; omega

/-- The result array after the call is the logits of the arrays the call found. -/
theorem final (c : Dev nD) (b : Vec Ideal Cert.ReferenceIdeal.S16 .f32)
    (hb : ∀ j : Fin 16, V c main_v83 (ix2 (0 : Fin 1) j) = b (ix1 j)) : (dat3 V c).arrAt 3 cfg3.N = logits V c b :=
  (dat3 V c).arrAt_eq_of_cover 3 (logits V c b) (fun t _ => flushed_eq V c b hb t) cover

end Cert.Bridge.Region3

end
-- ==== Proof.Chain.lean ====
/-
  The kernel program's value, boundary by boundary.

  At each call's entry and exit, the buffer carrying the network's activations holds the reference's stage of the same
  name, as a function of the arguments as launched: a call leaves the product of what it was given (the region
  modules), a stretch leaves the aggregation of what it was given (the layer modules), and the edge vectors, the edge
  weights and the arguments are carried unchanged between them. The last call leaves the logits.
-/
import proofs.«419398_j24824910970942_3_alg».proof.Proof.Carry
import proofs.«419398_j24824910970942_3_alg».proof.Proof.LayerK
import proofs.«419398_j24824910970942_3_alg».proof.Proof.LayerR
import proofs.«419398_j24824910970942_3_alg».proof.Proof.Region0
import proofs.«419398_j24824910970942_3_alg».proof.Proof.Region1
import proofs.«419398_j24824910970942_3_alg».proof.Proof.Region2
import proofs.«419398_j24824910970942_3_alg».proof.Proof.Region3

set_option maxRecDepth 16384

noncomputable section

namespace Cert.Bridge.Chain

open Idealize.ShloMosaic Idealize.ShloMosaic.StableHlo Idealize.ShloMosaic.TcCoe Idealize.ShloMosaic.ValueIdx Idealize.SL.Sem
open Cert.KernelIdeal Cert.KernelIdeal.Gen Cert.Bridge

variable (m : (ℓ : Loc nD τ sig) → Buf (Elt Ideal) ℓ) (ρ : Dev nD → PrngReg) (c : Dev nD)

/-- After the first call: x · w0. -/
theorem W4_v30 : W4 m ρ c (Proc.devRef .tc main_v30) = Cert.ReferenceIdeal.ReadP.val_main_v30 (F := Ideal) (m ((c : Thread nD τ).loc main_arg0)) (m ((c : Thread nD τ).loc main_arg2)) := by
  refine (W4_arr m ρ c 2).trans ((Region0.final (V3 m ρ) c).trans ?_)
  show Host.dotGeneral (F := Ideal) (φ₁ := .f32) (φ₂ := .f32) _ none (W3 m ρ c (Proc.devRef .tc main_arg0)) (W3 m ρ c (Proc.devRef .tc main_arg2)) = _
  rw [Carry.W3_arg0, Carry.W3_arg2]
  rfl

/-- At the second call's entry: the first layer's output. -/
theorem W6_v47 : W6 m ρ c (Proc.devRef .tc main_v47) = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) := by
  refine (LayerK.stretch1 (W4 m ρ c)).trans ?_
  rw [W4_v30, Carry.W4_v3, Carry.W4_v6, Carry.W4_v29, Carry.W4_arg3]
  exact (LayerR.ref_v47 _ _ _ _).symm

/-- After the second call. -/
theorem W7_v48 : W7 m ρ c (Proc.devRef .tc main_v48) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((Region1.final (V6 m ρ) c).trans ?_)
  show Host.dotGeneral (F := Ideal) (φ₁ := .f32) (φ₂ := .f32) _ none (W6 m ρ c (Proc.devRef .tc main_v47)) (W6 m ρ c (Proc.devRef .tc main_arg4)) = _
  rw [W6_v47, Carry.W6_arg4]
  rfl

/-- At the third call's entry: the second layer's output. -/
theorem W9_v65 : W9 m ρ c (Proc.devRef .tc main_v65) = Cert.ReferenceIdeal.ReadP.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (LayerK.stretch2 (W7 m ρ c)).trans ?_
  rw [W7_v48, Carry.W7_v3, Carry.W7_v6, Carry.W7_v29, Carry.W7_arg5]
  exact (LayerR.ref_v65 _ _ _ _ _ _).symm

/-- After the third call. -/
theorem W10_v66 : W10 m ρ c (Proc.devRef .tc main_v66) = Cert.ReferenceIdeal.ReadP.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 2).trans ((Region2.final (V9 m ρ) c).trans ?_)
  show Host.dotGeneral (F := Ideal) (φ₁ := .f32) (φ₂ := .f32) _ none (W9 m ρ c (Proc.devRef .tc main_v65)) (W9 m ρ c (Proc.devRef .tc main_arg6)) = _
  rw [W9_v65, Carry.W9_arg6]
  rfl

/-- At the classifier's entry: the third layer's output (no relu). -/
theorem W11_v82 : W11 m ρ c (Proc.devRef .tc main_v82) = Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (LayerK.stretch3 (W10 m ρ c)).trans ?_
  rw [W10_v66, Carry.W10_v3, Carry.W10_v6, Carry.W10_v29, Carry.W10_arg7]
  exact (LayerR.ref_v82 _ _ _ _ _ _ _ _).symm

/-- At the classifier's entry the bias buffer holds the bias vector as one row: entry (0, j) is entry j. -/
theorem W11_v83 (j : Fin 16) : W11 m ρ c (Proc.devRef .tc main_v83) (ix2 (0 : Fin 1) j) = (m ((c : Thread nD τ).loc main_arg9)) (ix1 j) := by
  rw [show W11 m ρ c (Proc.devRef .tc main_v83) = shapeCast S1x16 (W10 m ρ c (Proc.devRef .tc main_arg9)) shapeCasts_S16_S1x16 from LayerK.stretch3_bias (W10 m ρ c),
    Carry.W10_arg9]
  refine (shapeCast_addUnit_apply (![16] : Fin 1 → Nat) (m ((c : Thread nD τ).loc main_arg9)) shapeCasts_S16_S1x16 (ix2 (0 : Fin 1) j)).trans ?_
  exact congrArg (m ((c : Thread nD τ).loc main_arg9)) (funext fun a => by match a with | ⟨0, _⟩ => rfl)

/-- THE RESULT: after the last call the result buffer holds the reference's logits of the arguments as launched. -/
theorem W12_v84 : W12 m ρ c (Proc.devRef .tc main_v84) = Cert.ReferenceIdeal.ReadP.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 3).trans ((Region3.final (V11 m ρ) c (m ((c : Thread nD τ).loc main_arg9)) (W11_v83 m ρ c)).trans ?_)
  show addf (Host.dotGeneral (F := Ideal) (φ₁ := .f32) (φ₂ := .f32) _ none (W11 m ρ c (Proc.devRef .tc main_v82)) (W11 m ρ c (Proc.devRef .tc main_arg8))) _ = _
  rw [W11_v82, Carry.W11_arg8]
  rfl

end Cert.Bridge.Chain

end
-- ==== Proof.lean ====
/-
  A three-layer graph convolution network with a linear classifier, its four linear maps computed by a tiled matrix
  kernel, against the same network written with whole-array products.

  Both programs add a self loop to every node, count each node's incoming edges, weight every edge by the product of
  its endpoints' inverse square-root degrees, and in each layer gather the rows of h = (input) · w at the edges' sources,
  scale them, add them into the rows at the edges' destinations and add the bias (with a relu after the first two
  layers); the logits are (last output) · wc + bc. These host operations are the same in the two programs, operation by
  operation. They differ only in the four products: the reference takes each as one whole-array product, the kernel
  program in ten row tiles of 10000 rows, each tile the product of its rows into a zero accumulator (the last one adding
  the bias row inside the kernel). Over the extended reals a row tile of a product is the product of the row tile: the
  element (i, c) is the same sum over k of (input)(i, k) * w (k, c) either way, and 0 + s = s. So each call leaves the
  reference's product, each stretch of host operations between calls carries equal values to equal values, and the two
  programs end with the same logits. No step uses that the inputs are finite.

  The kernel programs' frames are the generated ones. The reference's frame is its run with the result dropped. The
  idealisation rewrote nothing, so there is nothing to preserve.
-/
import proofs.«419398_j24824910970942_3_alg».proof.Defs
import proofs.«419398_j24824910970942_3_alg».proof.Proof.Gen.Kernel
import proofs.«419398_j24824910970942_3_alg».proof.Proof.Gen.Kernel.Frame
import proofs.«419398_j24824910970942_3_alg».proof.Proof.Gen.KernelIdeal
import proofs.«419398_j24824910970942_3_alg».proof.Proof.Gen.KernelIdeal.Frame
import proofs.«419398_j24824910970942_3_alg».proof.Proof.Gen.ReferenceIdeal
import proofs.«419398_j24824910970942_3_alg».proof.Proof.Gen.Pre_finite_inputs
import proofs.«419398_j24824910970942_3_alg».proof.Proof.RunAll
import proofs.«419398_j24824910970942_3_alg».proof.Proof.RefRun
import proofs.«419398_j24824910970942_3_alg».proof.Proof.RefRead
import proofs.«419398_j24824910970942_3_alg».proof.Proof.Chain
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs, and keeps its arguments: its run, with what it says of the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at the reference's logits of the (shared) arguments. -/
theorem algebraic : Cert.algebraic_KernelIdeal_ReferenceIdeal := by
  intro m ρ m' ρ' _ hagree
  refine ⟨fun c => Cert.ReferenceIdeal.ReadP.val_main_v86 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)), ?_, ?_⟩
  · -- the kernel program: every buffer ends at the last boundary's contents; the result buffer's are the logits
    refine (θ_run Cert.KernelIdeal.defs _ _).mono (fun r h c => ?_) (Cert.KernelIdeal.RunAll.run_all (F := Ideal) m ρ)
    exact ⟨(h c _ (Cert.KernelIdeal.Gen.mem_uc Cert.KernelIdeal.main_v84 (by decide))).trans (Cert.Bridge.Chain.W12_v84 m ρ c),
      (h c _ (Cert.KernelIdeal.Gen.mem_uc Cert.KernelIdeal.main_arg0 (by decide))).trans (Cert.KernelIdeal.Gen.W12_main_arg0 m ρ c),
      (h c _ (Cert.KernelIdeal.Gen.mem_uc Cert.KernelIdeal.main_arg1 (by decide))).trans (Cert.KernelIdeal.Gen.W12_main_arg1 m ρ c),
      (h c _ (Cert.KernelIdeal.Gen.mem_uc Cert.KernelIdeal.main_arg2 (by decide))).trans (Cert.KernelIdeal.Gen.W12_main_arg2 m ρ c),
      (h c _ (Cert.KernelIdeal.Gen.mem_uc Cert.KernelIdeal.main_arg3 (by decide))).trans (Cert.KernelIdeal.Gen.W12_main_arg3 m ρ c),
      (h c _ (Cert.KernelIdeal.Gen.mem_uc Cert.KernelIdeal.main_arg4 (by decide))).trans (Cert.KernelIdeal.Gen.W12_main_arg4 m ρ c),
      (h c _ (Cert.KernelIdeal.Gen.mem_uc Cert.KernelIdeal.main_arg5 (by decide))).trans (Cert.KernelIdeal.Gen.W12_main_arg5 m ρ c),
      (h c _ (Cert.KernelIdeal.Gen.mem_uc Cert.KernelIdeal.main_arg6 (by decide))).trans (Cert.KernelIdeal.Gen.W12_main_arg6 m ρ c),
      (h c _ (Cert.KernelIdeal.Gen.mem_uc Cert.KernelIdeal.main_arg7 (by decide))).trans (Cert.KernelIdeal.Gen.W12_main_arg7 m ρ c),
      (h c _ (Cert.KernelIdeal.Gen.mem_uc Cert.KernelIdeal.main_arg8 (by decide))).trans (Cert.KernelIdeal.Gen.W12_main_arg8 m ρ c),
      (h c _ (Cert.KernelIdeal.Gen.mem_uc Cert.KernelIdeal.main_arg9 (by decide))).trans (Cert.KernelIdeal.Gen.W12_main_arg9 m ρ c)⟩
  · -- the reference: its run's term is its last stage, at arguments that agree with the kernel program's
    refine (θ_run Cert.ReferenceIdeal.defs _ _).mono (fun r h c => ⟨?_, (h c).2⟩) (Cert.ReferenceIdeal.ValueP.run (F := Ideal) m' ρ')
    obtain ⟨h0, h1, h2, h3, h4, h5, h6, h7, h8, h9⟩ := hagree c
    refine ((h c).1.trans (Cert.ReferenceIdeal.ReadP.val_main_v86_eq m' c)).trans ?_
    rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
